-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S4x1x2048x2048 : Shape := ⟨4, ![4, 1, 2048, 2048]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_

variable [Facts]

def fn_part1 {F : FTy → Type} [FloatOps F] (main_v13 : IVec S_ 1) (main_v16 : IVec S4x1x2048x2048 1) : IVec S_ 1 :=
  let main_c_5 : IVec S_ 1 := constantI S_ 1 1#1
  let main_v17 : IVec S_ 1 := (fun x v => Host.reduce IntOp.andi x v reducesTo_S4x1x2048x2048_S_d0_1_2_3 h_S_) main_v16 main_c_5
  let main_v18 : IVec S_ 1 := andi main_v13 main_v17
  main_v18

def fn {F : FTy → Type} [FloatOps F] (main_arg0 : FVec F S4x16x2048x128 .f32) (main_arg1 : FVec F S4x16x2048x128 .f32) (main_arg2 : FVec F S4x16x2048x128 .f32) (main_arg3 : FVec F S4x1x2048x2048 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  let main_v4 : FVec F S4x16x2048x128 .f32 := Host.absf main_arg1
  let main_cst_0 : FVec F S_ .f32 := constant S_ .f32 0x7F800000#32
  let main_v5 : FVec F S4x16x2048x128 .f32 := broadcastInDim S4x16x2048x128 ![] bcast_S_S4x16x2048x128 main_cst_0
  let main_v6 : IVec S4x16x2048x128 1 := cmpf .olt main_v4 main_v5
  let main_c_1 : IVec S_ 1 := constantI S_ 1 1#1
  let main_v7 : IVec S_ 1 := (fun x v => Host.reduce IntOp.andi x v reducesTo_S4x16x2048x128_S_d0_1_2_3 h_S_) main_v6 main_c_1
  let main_v8 : IVec S_ 1 := andi main_v3 main_v7
  let main_v9 : FVec F S4x16x2048x128 .f32 := Host.absf main_arg2
  let main_cst_2 : FVec F S_ .f32 := constant S_ .f32 0x7F800000#32
  let main_v10 : FVec F S4x16x2048x128 .f32 := broadcastInDim S4x16x2048x128 ![] bcast_S_S4x16x2048x128 main_cst_2
  let main_v11 : IVec S4x16x2048x128 1 := cmpf .olt main_v9 main_v10
  let main_c_3 : IVec S_ 1 := constantI S_ 1 1#1
  let main_v12 : IVec S_ 1 := (fun x v => Host.reduce IntOp.andi x v reducesTo_S4x16x2048x128_S_d0_1_2_3 h_S_) main_v11 main_c_3
  let main_v13 : IVec S_ 1 := andi main_v8 main_v12
  let main_v14 : FVec F S4x1x2048x2048 .f32 := Host.absf main_arg3
  let main_cst_4 : FVec F S_ .f32 := constant S_ .f32 0x7F800000#32
  let main_v15 : FVec F S4x1x2048x2048 .f32 := broadcastInDim S4x1x2048x2048 ![] bcast_S_S4x1x2048x2048 main_cst_4
  let main_v16 : IVec S4x1x2048x2048 1 := cmpf .olt main_v14 main_v15
  fn_part1 (F := F) main_v13 main_v16
-- ==== Kernel.lean ====
abbrev S4x16x2048x128 : Shape := ⟨4, ![4, 16, 2048, 128]⟩
abbrev S4x1x2048x2048 : Shape := ⟨4, ![4, 1, 2048, 2048]⟩
abbrev S4x16x2048x2048 : Shape := ⟨4, ![4, 16, 2048, 2048]⟩
abbrev S1x1x512x128 : Shape := ⟨4, ![1, 1, 512, 128]⟩
abbrev S1x1x2048x128 : Shape := ⟨4, ![1, 1, 2048, 128]⟩
abbrev S1x1x512x2048 : Shape := ⟨4, ![1, 1, 512, 2048]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S4x1x2048x2048, .f32⟩
  | .hbm, ⟨4, _⟩ => ⟨S4x16x2048x128, .f32⟩
  | .hbm, ⟨5, _⟩ => ⟨S4x16x2048x2048, .f32⟩
  | .local _ .vmem, ⟨0, _⟩ => ⟨S1x1x512x128, .f32⟩
  | .local _ .vmem, ⟨1, _⟩ => ⟨S1x1x512x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1x512x2048, .f32⟩
  | .local _ .vmem, ⟨11, _⟩ => ⟨S1x1x512x2048, .f32⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x128_S1x1x512x128 : S512x128.ShapeCasts S1x1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x128.size a ≤ S4x16x2048x128.size a
  hwx0_0 : ∀ i : grid0.Coords, EltTy.bits .f32 = 32 ∨ (Rect.block (s := S4x16x2048x128) S1x1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x128.size a ≤ S4x16x2048x128.size a
  hwx0_1 : ∀ i : grid0.Coords, EltTy.bits .f32 = 32 ∨ (Rect.block (s := S4x16x2048x128) S1x1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x128.size a ≤ S4x16x2048x128.size a
  hwx0_2 : ∀ i : grid0.Coords, EltTy.bits .f32 = 32 ∨ (Rect.block (s := S4x16x2048x128) S1x1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x1x2048x2048.size a
  hwx0_3 : ∀ i : grid0.Coords, EltTy.bits .f32 = 32 ∨ (Rect.block (s := S4x1x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x128.size a ≤ S4x16x2048x128.size a
  hwx0_4 : ∀ i : grid0.Coords, EltTy.bits .f32 = 32 ∨ (Rect.block (s := S4x16x2048x128) S1x1x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x128 : Shape := ⟨4, ![4, 16, 2048, 128]⟩
abbrev S4x1x2048x2048 : Shape := ⟨4, ![4, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S4x1x2048x2048, .f32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x1x2048x2048, .f32⟩
  | .hbm, ⟨10, _⟩ => ⟨S4x1x2048x2048, .f32⟩
  | .hbm, ⟨11, _⟩ => ⟨S4x16x2048x2048, .f32⟩
  | .hbm, ⟨12, _⟩ => ⟨S4x16x2048x2048, .f32⟩
  | .hbm, ⟨13, _⟩ => ⟨S_, .f32⟩
  | .hbm, ⟨14, _⟩ => ⟨S4x16x2048, .f32⟩
  | .hbm, ⟨15, _⟩ => ⟨S_, .f32⟩
  | .hbm, ⟨16, _⟩ => ⟨S4x16x2048, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x128_S4x16x2048x128_S4x16x2048x2048_3_3_2_2_01_01_wf : DotDims.WF S4x16x2048x128 S4x16x2048x128 S4x16x2048x2048 [3] [3] [2] [2] [0, 1] [0, 1]
  dot_S4x16x2048x2048_S4x16x2048x128_S4x16x2048x128_3_2_2_3_01_01_wf : DotDims.WF S4x16x2048x2048 S4x16x2048x128 S4x16x2048x128 [3] [2] [2] [3] [0, 1] [0, 1]

variable [Facts₀]

def dot_S4x16x2048x128_S4x16x2048x128_S4x16x2048x2048_3_3_2_2_01_01 : DotDims S4x16x2048x128 S4x16x2048x128 S4x16x2048x2048 where
  lhsContracting := [3]
  rhsContracting := [3]
  lhsNonContracting := [2]
  rhsNonContracting := [2]
  lhsBatch := [0, 1]
  rhsBatch := [0, 1]
  wf := dot_S4x16x2048x128_S4x16x2048x128_S4x16x2048x2048_3_3_2_2_01_01_wf
def dot_S4x16x2048x2048_S4x16x2048x128_S4x16x2048x128_3_2_2_3_01_01 : DotDims S4x16x2048x2048 S4x16x2048x128 S4x16x2048x128 where
  lhsContracting := [3]
  rhsContracting := [2]
  lhsNonContracting := [2]
  rhsNonContracting := [3]
  lhsBatch := [0, 1]
  rhsBatch := [0, 1]
  wf := dot_S4x16x2048x2048_S4x16x2048x128_S4x16x2048x128_3_2_2_3_01_01_wf

class Facts : Prop extends Facts₀ where

variable [Facts]
-- ==== Proof.Finite.lean ====
import proofs.«428093_j65901978190341_3_alg».proof.Pre_finite_inputs
import Idealize.ShloMosaic.PureOps.Ideal
import Idealize.ShloMosaic.PureOps.Ideal.Laws
import Idealize.ShloMosaic.Lib.ReduceAll
import Idealize.ShloMosaic.Lib.ValueIdx
noncomputable section
namespace Cert.Attn
open Idealize.ShloMosaic

/-- The single-precision pattern `0x7F800000` (sign 0, exponent all ones, fraction 0) denotes `+∞`. -/
theorem ofBits_posInf : Ideal.ofBits .f32 0x7F800000#32 = (⊤ : EReal) := by
  simp [Ideal.ofBits, Ideal.ieee]

/-- An extended real whose absolute value `max x (-x)` lies strictly below `⊤` is a real number:
    at `x = ⊥` the absolute value is `-⊥ = ⊤`, at `x = ⊤` it is `⊤`, and neither is below `⊤`. -/
theorem real_of_abs_lt_top (x : EReal) (hx : max x (-x) < ⊤) : ∃ r : ℝ, x = (r : EReal) := by
  induction x using EReal.rec with
  | bot => simp at hx
  | coe r => exact ⟨r, rfl⟩
  | top => simp at hx

/-- The ordered comparison `|x| < +∞` having the truth value 1 makes `x` a real number. -/
theorem real_of_cmp_abs (x : EReal)
    (hx : Ideal.cmp .olt (max x (-x)) (Ideal.ofBits .f32 0x7F800000#32) = 1#1) : ∃ r : ℝ, x = (r : EReal) := by
  rw [ofBits_posInf] at hx
  refine real_of_abs_lt_top x ?_
  by_contra hlt
  simp [Ideal.cmp, hlt] at hx

/-- The rank-0 shape has exactly one index. -/
instance subsingleton_scalarIdx : Subsingleton Cert.Pre_finite_inputs.S_.Idx :=
  ⟨fun a b => funext fun d => d.elim0⟩

/-- Under the precondition every entry of the first two argument arrays is a real number. -/
theorem real_of_pre [Cert.Pre_finite_inputs.Facts]
    (Q K V : FVec Ideal Cert.Pre_finite_inputs.S4x16x2048x128 .f32) (M : FVec Ideal Cert.Pre_finite_inputs.S4x1x2048x2048 .f32)
    (h : Cert.Pre_finite_inputs.fn (F := Ideal) Q K V M = fun _ => 1#1) :
    (∀ i, ∃ r : ℝ, Q i = (r : EReal)) ∧ (∀ i, ∃ r : ℝ, K i = (r : EReal)) := by
  have h0 := congrFun h ValueIdx.ix0
  dsimp only [Cert.Pre_finite_inputs.fn, Cert.Pre_finite_inputs.fn_part1, andi] at h0
  -- the result is ((allQ ∧ allK) ∧ allV) ∧ allM
  obtain ⟨h123, _⟩ := IntOp.andi_eq_one.1 h0
  obtain ⟨h12, _⟩ := IntOp.andi_eq_one.1 h123
  obtain ⟨hQ, hK⟩ := IntOp.andi_eq_one.1 h12
  refine ⟨fun i => ?_, fun i => ?_⟩
  · exact real_of_cmp_abs (Q i) (Host.reduce_andi_all _ _ _ _ _ hQ i)
  · exact real_of_cmp_abs (K i) (Host.reduce_andi_all _ _ _ _ _ hK i)

end Cert.Attn
end
-- ==== Proof.Softmax.lean ====
/-
  Scaled dot-product attention with an additive mask bias, on the extended reals.

  For query rows `Q[b,h,q,·]`, key rows `K[b,h,k,·]` (128 features each) and a mask `M[b,0,q,k]` shared by the 16 heads,
  the score is  s(b,h,q,k) = Σ_d (Q[b,h,q,d] · 2⁻⁷) · K[b,h,k,d] + M[b,0,q,k] · w  with `w` the one bias word both programs
  spell; the attention weights are the row softmax  a(b,h,q,k) = exp(s(k) − max_k' s(k')) / Σ_k' exp(s(k') − max_k'' s(k''))
  and the output is  o(b,h,q,d) = Σ_k a(b,h,q,k) · V[b,h,k,d].

  One of the two programs scales the query by 2⁻⁷ before the contraction, the other divides the contracted sum by 128.
  Over REAL entries these agree (a finite sum of reals distributes over a real factor); at an infinite entry they need not,
  which is where finiteness of the inputs is used: `scaled_dot`.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Queries, keys and values: batch 4, 16 heads, 2048 positions, 128 features. -/
abbrev SQ : Shape := ⟨4, ![4, 16, 2048, 128]⟩
/-- The mask: batch 4, one row of heads, 2048 × 2048 positions. -/
abbrev SM : Shape := ⟨4, ![4, 1, 2048, 2048]⟩
/-- The attention weights: batch 4, 16 heads, 2048 × 2048 positions. -/
abbrev SA : Shape := ⟨4, ![4, 16, 2048, 2048]⟩

/-! ## The constants -/

/-- The scale folded into the query, `2⁻⁷`, is the real `1/128`. -/
theorem scale_eq : Ideal.ofBits .f32 0x3C000000#32 = ((1 / 128 : ℝ) : EReal) := by
  simp [Ideal.ofBits, Ideal.ieee, -EReal.coe_mul]; norm_num

/-- The divisor `128.0` is the real `128`. -/
theorem divisor_eq : Ideal.ofBits .f32 0x43000000#32 = ((128 : ℝ) : EReal) := by
  simp [Ideal.ofBits, Ideal.ieee, -EReal.coe_mul]; norm_num

/-- The pattern of `-∞`, from which both row maxima start, is the bottom of the extended reals. -/
theorem neg_inf_eq : Ideal.ofBits .f32 0xFF800000#32 = (⊥ : EReal) := by
  simp [Ideal.ofBits, Ideal.ieee]

/-! ## The row softmax -/

/-- The maximum of a row of 2048 scores, from `-∞`. -/
def rowMax (s : Fin 2048 → EReal) : EReal :=
  (Finset.univ : Finset (Fin 2048)).fold max (Ideal.ofBits .f32 0xFF800000#32) s

/-- The softmax of a row of 2048 scores at position `k`: the exponential of the score less the row's maximum, over the
    sum of those exponentials along the row. -/
def softmax (s : Fin 2048 → EReal) (k : Fin 2048) : EReal :=
  Ideal.div (Ideal.exp (s k - rowMax s)) (∑ k' : Fin 2048, Ideal.exp (s k' - rowMax s))

/-- Taking the maximum with `-∞` once more changes nothing. -/
theorem max_neg_inf_rowMax (s : Fin 2048 → EReal) : max (Ideal.ofBits .f32 0xFF800000#32) (rowMax s) = rowMax s := by
  rw [neg_inf_eq]; exact max_eq_right bot_le

/-! ## Scores, weights and outputs as functions of the whole arrays -/

/-- The score of query position `q` against key position `k` in batch `b`, head `h`: the query row scaled by `2⁻⁷`
    contracted with the key row over the 128 features, plus the mask entry times the bias word. -/
def score (Q K : SQ.Idx → EReal) (M : SM.Idx → EReal) (b : Fin 4) (h : Fin 16) (q k : Fin 2048) : EReal :=
  (∑ d : Fin 128, (Q (ix4 b h q d) * Ideal.ofBits .f32 0x3C000000#32) * K (ix4 b h k d))
    + M (ix4 b (0 : Fin 1) q k) * Ideal.ofBits .f32 0xCE6E6B28#32

/-- The attention weights: the row softmax of the scores. -/
def attn (Q K : SQ.Idx → EReal) (M : SM.Idx → EReal) : SA.Idx → EReal :=
  fun i => softmax (score Q K M (i 0) (i 1) (i 2)) (i 3)

/-- The output: each weight row contracted with the value rows over the 2048 key positions. -/
def out (Q K V : SQ.Idx → EReal) (M : SM.Idx → EReal) : SQ.Idx → EReal :=
  fun i => ∑ k : Fin 2048, attn Q K M (ix4 (i 0) (i 1) (i 2) k) * V (ix4 (i 0) (i 1) k (i 3))

/-! ## Scaling before the contraction against dividing after it -/

/-- A finite sum of reals, read in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- For REAL rows `a`, `b`: scaling every entry of `a` by `2⁻⁷` before contracting with `b` is dividing the contraction by
    `128` — the real sum distributes over the real factor `1/128`. -/
theorem scaled_dot (a b : Fin 128 → EReal) (ha : ∀ d, ∃ r : ℝ, a d = (r : EReal)) (hb : ∀ d, ∃ r : ℝ, b d = (r : EReal)) :
    (∑ d : Fin 128, (a d * Ideal.ofBits .f32 0x3C000000#32) * b d)
      = Ideal.div (∑ d : Fin 128, a d * b d) (Ideal.ofBits .f32 0x43000000#32) := by
  obtain ⟨ra, hra⟩ : ∃ ra : Fin 128 → ℝ, ∀ d, a d = ((ra d : ℝ) : EReal) :=
    ⟨fun d => (ha d).choose, fun d => (ha d).choose_spec⟩
  obtain ⟨rb, hrb⟩ : ∃ rb : Fin 128 → ℝ, ∀ d, b d = ((rb d : ℝ) : EReal) :=
    ⟨fun d => (hb d).choose, fun d => (hb d).choose_spec⟩
  rw [scale_eq, divisor_eq, Ideal.div_coe (by norm_num : (128 : ℝ) ≠ 0)]
  simp only [hra, hrb, ← EReal.coe_mul, coe_sum]
  congr 1
  rw [Finset.sum_mul]
  exact Finset.sum_congr rfl fun d _ => by ring

end Cert.Attn

end
-- ==== Proof.RefValue.lean ====
/-
  The reference computes the specification.

  Read one operation at a time, the host program's attention weights at (b,h,q,k) are
  exp(s − max(−∞, max_k' s)) / (0 + Σ_k' exp(s − …)) with  s = (Σ_d Q·K) / 128 + M·w,  and its output at (b,h,q,d) is
  Σ_k weights·V. The extra maximum with −∞ and the extra zero term fall away; dividing the contracted sum by 128 is
  scaling the query by 2⁻⁷ first, on real entries (`scaled_dot`).
-/
import proofs.«428093_j65901978190341_3_alg».proof.Proof.Gen.ReferenceIdeal.Read
import proofs.«428093_j65901978190341_3_alg».proof.Proof.Softmax

noncomputable section

namespace Cert.Attn

open Cert.ReferenceIdeal Cert.ReferenceIdeal.Gen Cert.ReferenceIdeal.Read Idealize.ShloMosaic Idealize.ShloMosaic.ValueIdx

variable (Q K V : SQ.Idx → EReal) (M : SM.Idx → EReal)

/-- The reference's score — the contraction divided by 128, plus the mask entry times the bias word — is the
    specification's, where the query and key entries are real. -/
theorem ref_score (hQ : ∀ i, ∃ r : ℝ, Q i = (r : EReal)) (hK : ∀ i, ∃ r : ℝ, K i = (r : EReal)) (i : SA.Idx) :
    val_main_v6 (F := Ideal) Q K M i = score Q K M (i 0) (i 1) (i 2) (i 3) := by
  have eQ : ∀ d : Fin 128, lidx_main_v0 i d = ix4 (i 0) (i 1) (i 2) d := fun d => funext fun a => Fin.ext (by
    match a with | ⟨0, _⟩ => rfl | ⟨1, _⟩ => rfl | ⟨2, _⟩ => rfl | ⟨3, _⟩ => rfl)
  have eK : ∀ d : Fin 128, ridx_main_v0 i d = ix4 (i 0) (i 1) (i 3) d := fun d => funext fun a => Fin.ext (by
    match a with | ⟨0, _⟩ => rfl | ⟨1, _⟩ => rfl | ⟨2, _⟩ => rfl | ⟨3, _⟩ => rfl)
  have eM : idx_main_v5 i = ix4 (i 0) (0 : Fin 1) (i 2) (i 3) := funext fun a => Fin.ext (by
    match a with | ⟨0, _⟩ => rfl | ⟨1, _⟩ => rfl | ⟨2, _⟩ => rfl | ⟨3, _⟩ => rfl)
  rw [val_main_v6_apply, val_main_v2_apply, val_main_v0_apply, val_main_v1_apply, val_main_cst_apply,
    val_main_v5_apply, val_main_v4_apply, val_main_v3_apply, val_main_cst_0_apply]
  simp only [Ideal.addf_def, Ideal.hostDivf_def, Ideal.mulf_def, Ideal.ofBits_def, eQ, eK, eM]
  unfold score
  rw [scaled_dot (fun d => Q (ix4 (i 0) (i 1) (i 2) d)) (fun d => K (ix4 (i 0) (i 1) (i 3) d)) (fun d => hQ _) (fun d => hK _)]
  rfl

/-- The reference's row maximum — the reduce from −∞ along the key axis, then once more against −∞ — is the
    specification's row maximum of the reference's scores. -/
theorem ref_max (j : S4x16x2048.Idx) :
    val_main_v9 (F := Ideal) Q K M j = rowMax (fun k => val_main_v6 (F := Ideal) Q K M (ix4 (j 0) (j 1) (j 2) k)) := by
  have hr : S4x16x2048x2048.Reduces [3] S4x16x2048 := by decide
  have hs : (val_main_v6 (F := Ideal) Q K M ∘ hr.lift j) = fun k => val_main_v6 (F := Ideal) Q K M (ix4 (j 0) (j 1) (j 2) k) :=
    funext fun k => congrArg (val_main_v6 (F := Ideal) Q K M) (funext fun a => Fin.ext (by
      match a with | ⟨0, _⟩ => rfl | ⟨1, _⟩ => rfl | ⟨2, _⟩ => rfl | ⟨3, _⟩ => rfl))
  rw [val_main_v9_apply, val_main_v8_apply, val_main_cst_2_apply]
  unfold val_main_v7
  rw [Host.reduce_eq_fold_single FloatOps.maximumf _ _ reducesTo_S4x16x2048x2048_S4x16x2048_d3 hr h_S_ j, hs]
  exact max_neg_inf_rowMax _

/-- The reference's exponentials: of the score less its row's maximum. -/
theorem ref_exp (i : SA.Idx) :
    val_main_v13 (F := Ideal) Q K M i
      = Ideal.exp (val_main_v6 (F := Ideal) Q K M i - rowMax (fun k => val_main_v6 (F := Ideal) Q K M (ix4 (i 0) (i 1) (i 2) k))) := by
  rw [val_main_v13_apply, val_main_v12_apply, val_main_v11_apply, val_main_v10_apply, ref_max]
  rfl

/-- The reference's row sums: the zero it starts from falls away. -/
theorem ref_sum (j : S4x16x2048.Idx) :
    val_main_v14 (F := Ideal) Q K M j = ∑ k : Fin 2048, val_main_v13 (F := Ideal) Q K M (ix4 (j 0) (j 1) (j 2) k) := by
  rw [val_main_v14_apply, val_main_cst_3_apply]
  simp only [Ideal.ofBits_def, Ideal.ofBits_zero_f32, zero_add]
  exact Finset.sum_congr rfl fun k _ => congrArg (val_main_v13 (F := Ideal) Q K M) (funext fun a => Fin.ext (by
    match a with | ⟨0, _⟩ => rfl | ⟨1, _⟩ => rfl | ⟨2, _⟩ => rfl | ⟨3, _⟩ => rfl))

/-- THE REFERENCE'S WEIGHTS are the specification's, where the query and key entries are real. -/
theorem ref_attn (hQ : ∀ i, ∃ r : ℝ, Q i = (r : EReal)) (hK : ∀ i, ∃ r : ℝ, K i = (r : EReal)) :
    val_main_v17 (F := Ideal) Q K M = attn Q K M := by
  funext i
  rw [val_main_v17_apply, val_main_v16_apply, val_main_v15_apply, ref_sum]
  simp only [ref_exp, Ideal.hostDivf_def, ref_score Q K M hQ hK]
  rfl

/-- THE REFERENCE'S OUTPUT is the specification's: the weights contracted with the values over the key positions. -/
theorem ref_out (hQ : ∀ i, ∃ r : ℝ, Q i = (r : EReal)) (hK : ∀ i, ∃ r : ℝ, K i = (r : EReal)) :
    val_main_v18 (F := Ideal) Q K V M = out Q K V M := by
  funext i
  rw [val_main_v18_apply, ref_attn Q K M hQ hK]
  unfold out
  refine Finset.sum_congr rfl fun k _ => ?_
  have el : lidx_main_v18 i k = ix4 (i 0) (i 1) (i 2) k := funext fun a => Fin.ext (by
    match a with | ⟨0, _⟩ => rfl | ⟨1, _⟩ => rfl | ⟨2, _⟩ => rfl | ⟨3, _⟩ => rfl)
  have er : ridx_main_v18 i k = ix4 (i 0) (i 1) k (i 3) := funext fun a => Fin.ext (by
    match a with | ⟨0, _⟩ => rfl | ⟨1, _⟩ => rfl | ⟨2, _⟩ => rfl | ⟨3, _⟩ => rfl)
  rw [el, er]
  rfl

end Cert.Attn

end
-- ==== Proof.KerTile.lean ====
/-
  One grid point of the kernel, as mathematics.

  At a grid point the body holds a tile of 512 query rows `x0[0,0,r,·]`, all 2048 key rows `x1[0,0,k,·]` and value rows
  `x2[0,0,k,·]` of one head, and the 512 × 2048 tile `x3[0,0,r,k]` of the mask. It forms the score tile
  s(r,k) = Σ_d (x0[r,d] · 2⁻⁷) · x1[k,d] + x3[r,k] · w, takes each row's maximum from −∞, exponentiates the differences, sums
  each row and divides: the weight tile is the row softmax of the score tile. The output tile is the weight tile
  contracted with the value rows over the 2048 key positions. Changes of float format are the identity on extended reals.
-/
import proofs.«428093_j65901978190341_3_alg».proof.Proof.Gen.KernelIdeal.Skeleton
import proofs.«428093_j65901978190341_3_alg».proof.Proof.Softmax
import Idealize.ShloMosaic.Lib.Pipeline.Value
import Idealize.ShloMosaic.Lib.ValueIdx
import Idealize.ShloMosaic.PureOps.Ideal.Laws

noncomputable section

namespace Cert.Attn

open Cert.KernelIdeal Cert.KernelIdeal.Gen Idealize.ShloMosaic Idealize.ShloMosaic.ValueIdx

/-! ## Re-laid arrays read at an index -/

section Layout
variable {α : Type}

/-- A `[1,1,a,b]` array read as an `[a,b]` matrix: entry (r,c) is the entry (0,0,r,c). -/
theorem cast_11ab_ab {a b : ℕ} (x : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ x h (ix2 r c) = x (ix4 (0 : Fin 1) (0 : Fin 1) r c) :=
  shapeCast_apply x h _ _ (by
    rw [Shape.rowMajor_val_four, Shape.rowMajor_val_two]
    show ((0 * 1 + 0) * a + r.val) * b + c.val = r.val * b + c.val
    simp)

/-- An `[a,b]` matrix read as a `[1,1,a,b]` array: entry j is the matrix entry (j 2, j 3). -/
theorem cast_ab_11ab {a b : ℕ} (x : (⟨2, ![a, b]⟩ : Shape).Idx → α)
    (h : (⟨2, ![a, b]⟩ : Shape).ShapeCasts ⟨4, ![1, 1, a, b]⟩) (j : (⟨4, ![1, 1, a, b]⟩ : Shape).Idx) :
    shapeCast ⟨4, ![1, 1, a, b]⟩ x h j = x (ix2 (j 2) (j 3)) :=
  shapeCast_apply x h j _ (by
    have h0 : (j 0).val < 1 := (j 0).isLt
    have h1 : (j 1).val < 1 := (j 1).isLt
    have e0 : (j 0).val = 0 := by omega
    have e1 : (j 1).val = 0 := by omega
    rw [Shape.rowMajor_val_two, Shape.rowMajor_val_four]
    show (j 2).val * b + (j 3).val = (((j 0).val * 1 + (j 1).val) * a + (j 2).val) * b + (j 3).val
    rw [e0, e1]; simp)

/-- A vector of `a` entries read as an `[a,1]` column: entry j is the vector's entry (j 0). -/
theorem cast_a_a1 {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 (j 0)) :=
  shapeCast_apply x h j _ (by
    have h1 : (j 1).val < 1 := (j 1).isLt
    rw [Shape.rowMajor_val_one, Shape.rowMajor_val_two]
    show (j 0).val = (j 0).val * 1 + (j 1).val
    omega)

/-- A 512-entry column repeated along 2048 columns: entry (r,c) is the column's entry r. -/
theorem bcast_col (x : S512x1.Idx → α) (h : S512x1.Broadcasts S512x2048) (r : Fin 512) (c : Fin 2048) :
    broadcastTo S512x2048 x h (ix2 r c) = x (ix2 r (0 : Fin 1)) :=
  broadcastTo_apply x h _ _ (fun a => match a with
    | ⟨0, _⟩ => by show r.val = if (512 : Nat) = 1 then 0 else r.val; rw [if_neg (by decide)]
    | ⟨1, _⟩ => by show 0 = if (1 : Nat) = 1 then 0 else c.val; rw [if_pos rfl])

/-- A per-row statistic of a 512 × 2048 tile, put in a column and repeated along the row: entry (r,c) is the
    statistic of row r. -/
theorem col_apply (v : S512.Idx → α) (r : Fin 512) (c : Fin 2048) :
    broadcastTo S512x2048 (shapeCast S512x1 v shapeCasts_S512_S512x1) broadcasts_S512x1_S512x2048 (ix2 r c) = v (ix1 r) :=
  (bcast_col _ _ r c).trans (cast_a_a1 v _ _)

end Layout

/-! ## The two row reductions -/

/-- The lane maximum of a 512 × 2048 tile, from −∞, at row r is the row's maximum. -/
theorem rowmax_apply (v : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 v 0xFF800000#32 h hφ hacc (ix1 r) = rowMax (fun k => v (ix2 r k)) := by
  refine (Ideal.multiReduction_maximumf_single v _ h hφ hacc (ix1 r)).trans ?_
  have hs : (v ∘ h.lift (ix1 r)) = fun k : Fin 2048 => v (ix2 r k) :=
    funext fun k => congrArg v (funext fun a => Fin.ext (by match a with | ⟨0, _⟩ => rfl | ⟨1, _⟩ => rfl))
  rw [hs]
  rfl

/-- The lane sum of a 512 × 2048 tile at row r is the sum along the row. -/
theorem rowsum_apply (v : FVec Ideal S512x2048 .f32) (h : S512x2048.Reduces [1] S512) (hφ : FKind.Formats .f32)
    (hacc : (0x00000000#32 : BitVec 32) = FKind.add.neutral .f32 hφ) (r : Fin 512) :
    multiReduction .add [1] S512 v 0x00000000#32 h hφ hacc (ix1 r) = ∑ k : Fin 2048, v (ix2 r k) := by
  refine (Ideal.multiReduction_add_single v _ h hφ hacc (ix1 r)).trans ?_
  exact Finset.sum_congr rfl fun k _ => congrArg v (funext fun a => Fin.ext (by
    match a with | ⟨0, _⟩ => rfl | ⟨1, _⟩ => rfl))

/-! ## The two contractions -/

theorem qk_lhs_0 (j : S512x2048.Idx) (q : dot_S512x128_S2048x128_S512x2048_1_1_0_0_n_n.contr.Idx) :
    (dot_S512x128_S2048x128_S512x2048_1_1_0_0_n_n.lhsIdx j q 0).val = (j 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem qk_lhs_1 (j : S512x2048.Idx) (q : dot_S512x128_S2048x128_S512x2048_1_1_0_0_n_n.contr.Idx) :
    (dot_S512x128_S2048x128_S512x2048_1_1_0_0_n_n.lhsIdx j q 1).val = (q ⟨0, by decide⟩).val :=
  dot_S512x128_S2048x128_S512x2048_1_1_0_0_n_n.lhsIdx_val_of_single rfl j q
theorem qk_rhs_0 (j : S512x2048.Idx) (q : dot_S512x128_S2048x128_S512x2048_1_1_0_0_n_n.contr.Idx) :
    (dot_S512x128_S2048x128_S512x2048_1_1_0_0_n_n.rhsIdx j q 0).val = (j 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem qk_rhs_1 (j : S512x2048.Idx) (q : dot_S512x128_S2048x128_S512x2048_1_1_0_0_n_n.contr.Idx) :
    (dot_S512x128_S2048x128_S512x2048_1_1_0_0_n_n.rhsIdx j q 1).val = (q ⟨0, by decide⟩).val :=
  dot_S512x128_S2048x128_S512x2048_1_1_0_0_n_n.rhsIdx_val_of_single rfl j q

/-- Query rows against key rows: entry (r,k) of the product is the sum over the 128 features of row r of the left
    operand times row k of the right. -/
theorem qk_apply (l : FVec Ideal S512x128 .bf16) (rr : FVec Ideal S2048x128 .bf16) (r : Fin 512) (k : Fin 2048) :
    matmul dot_S512x128_S2048x128_S512x2048_1_1_0_0_n_n none l rr (constant S512x2048 .f32 0x00000000#32) (ix2 r k)
      = ∑ d : Fin 128, l (ix2 r d) * rr (ix2 k d) := by
  simp only [matmul]
  rw [Ideal.matmul_constant_zero_apply, ← Equiv.sum_comp (contrEquiv1 dot_S512x128_S2048x128_S512x2048_1_1_0_0_n_n 128 rfl rfl).symm]
  refine Finset.sum_congr rfl fun d _ => ?_
  have hd := contrEquiv1_symm_val dot_S512x128_S2048x128_S512x2048_1_1_0_0_n_n 128 rfl rfl d
  have el : dot_S512x128_S2048x128_S512x2048_1_1_0_0_n_n.lhsIdx (ix2 r k) ((contrEquiv1 dot_S512x128_S2048x128_S512x2048_1_1_0_0_n_n 128 rfl rfl).symm d) = ix2 r d := funext fun a => Fin.ext (by
    match a with
    | ⟨0, _⟩ => exact qk_lhs_0 _ _
    | ⟨1, _⟩ => exact (qk_lhs_1 _ _).trans hd)
  have er : dot_S512x128_S2048x128_S512x2048_1_1_0_0_n_n.rhsIdx (ix2 r k) ((contrEquiv1 dot_S512x128_S2048x128_S512x2048_1_1_0_0_n_n 128 rfl rfl).symm d) = ix2 k d := funext fun a => Fin.ext (by
    match a with
    | ⟨0, _⟩ => exact qk_rhs_0 _ _
    | ⟨1, _⟩ => exact (qk_rhs_1 _ _).trans hd)
  rw [el, er]

theorem pv_lhs_0 (j : S512x128.Idx) (q : dot_S512x2048_S2048x128_S512x128_1_0_0_1_n_n.contr.Idx) :
    (dot_S512x2048_S2048x128_S512x128_1_0_0_1_n_n.lhsIdx j q 0).val = (j 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem pv_lhs_1 (j : S512x128.Idx) (q : dot_S512x2048_S2048x128_S512x128_1_0_0_1_n_n.contr.Idx) :
    (dot_S512x2048_S2048x128_S512x128_1_0_0_1_n_n.lhsIdx j q 1).val = (q ⟨0, by decide⟩).val :=
  dot_S512x2048_S2048x128_S512x128_1_0_0_1_n_n.lhsIdx_val_of_single rfl j q
theorem pv_rhs_0 (j : S512x128.Idx) (q : dot_S512x2048_S2048x128_S512x128_1_0_0_1_n_n.contr.Idx) :
    (dot_S512x2048_S2048x128_S512x128_1_0_0_1_n_n.rhsIdx j q 0).val = (q ⟨0, by decide⟩).val :=
  dot_S512x2048_S2048x128_S512x128_1_0_0_1_n_n.rhsIdx_val_of_single rfl j q
theorem pv_rhs_1 (j : S512x128.Idx) (q : dot_S512x2048_S2048x128_S512x128_1_0_0_1_n_n.contr.Idx) :
    (dot_S512x2048_S2048x128_S512x128_1_0_0_1_n_n.rhsIdx j q 1).val = (j 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- Weight rows against value rows: entry (r,d) of the product is the sum over the 2048 key positions of the weight
    (r,k) times the value (k,d). -/
theorem pv_apply (l : FVec Ideal S512x2048 .bf16) (rr : FVec Ideal S2048x128 .bf16) (r : Fin 512) (d : Fin 128) :
    matmul dot_S512x2048_S2048x128_S512x128_1_0_0_1_n_n none l rr (constant S512x128 .f32 0x00000000#32) (ix2 r d)
      = ∑ k : Fin 2048, l (ix2 r k) * rr (ix2 k d) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 r d) ((contrEquiv1 dot_S512x2048_S2048x128_S512x128_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S512x2048_S2048x128_S512x128_1_0_0_1_n_n.rhsIdx (ix2 r d) ((contrEquiv1 dot_S512x2048_S2048x128_S512x128_1_0_0_1_n_n 2048 rfl rfl).symm k) = ix2 k d := funext fun a => Fin.ext (by
    match a with
    | ⟨0, _⟩ => exact (pv_rhs_0 _ _).trans hk
    | ⟨1, _⟩ => exact pv_rhs_1 _ _)
  rw [el, er]

/-! ## The score tile and its row softmax -/

variable (x0 : Vec Ideal S1x1x512x128 .f32) (x1 x2 : Vec Ideal S1x1x2048x128 .f32) (x3 : Vec Ideal S1x1x512x2048 .f32)

/-- The score of tile row r against key position k, from the loaded blocks. -/
def tileScore (r : Fin 512) (k : Fin 2048) : EReal :=
  (∑ d : Fin 128, (x0 (ix4 (0 : Fin 1) (0 : Fin 1) r d) * Ideal.ofBits .f32 0x3C000000#32) * x1 (ix4 (0 : Fin 1) (0 : Fin 1) k d))
    + x3 (ix4 (0 : Fin 1) (0 : Fin 1) r k) * Ideal.ofBits .f32 0xCE6E6B28#32

/-- The body's score tile: the scaled query tile times the key rows, plus the mask tile times the bias word. -/
def scoreTile : FVec Ideal S512x2048 .f32 :=
  addf (matmul dot_S512x128_S2048x128_S512x2048_1_1_0_0_n_n none
      (truncf .bf16 (mulf (shapeCast S512x128 x0 shapeCasts_S1x1x512x128_S512x128) (broadcast S512x128 (Scalar.ofBits .f32 0x3C000000#32))) bitsLt_bf16_f32)
      (truncf .bf16 (shapeCast S2048x128 x1 shapeCasts_S1x1x2048x128_S2048x128) bitsLt_bf16_f32)
      (constant S512x2048 .f32 0x00000000#32))
    (mulf (shapeCast S512x2048 x3 shapeCasts_S1x1x512x2048_S512x2048) (broadcast S512x2048 (Scalar.ofBits .f32 0xCE6E6B28#32)))

theorem scoreTile_apply (r : Fin 512) (k : Fin 2048) : scoreTile x0 x1 x3 (ix2 r k) = tileScore x0 x1 x3 r k := by
  unfold scoreTile tileScore
  refine congrArg₂ (· + ·) ((qk_apply _ _ r k).trans (Finset.sum_congr rfl fun d _ => ?_)) ?_
  · exact congrArg₂ (· * ·) (congrArg (· * Ideal.ofBits .f32 0x3C000000#32) (cast_11ab_ab x0 _ r d)) (cast_11ab_ab x1 _ k d)
  · exact congrArg (· * Ideal.ofBits .f32 0xCE6E6B28#32) (cast_11ab_ab x3 _ r k)

/-- Each row's maximum, repeated along the row. -/
def maxCol (s : FVec Ideal S512x2048 .f32) : FVec Ideal S512x2048 .f32 :=
  broadcastTo S512x2048 (shapeCast S512x1 (multiReduction .maximumf [1] S512 s 0xFF800000#32 reduces_S512x2048_S512 (.inl rfl) rfl) shapeCasts_S512_S512x1) broadcasts_S512x1_S512x2048

/-- The exponentials of the scores less their row's maximum. -/
def expTile (s : FVec Ideal S512x2048 .f32) : FVec Ideal S512x2048 .f32 := exp (subf s (maxCol s))

/-- Each row's sum of exponentials, repeated along the row. -/
def sumCol (s : FVec Ideal S512x2048 .f32) : FVec Ideal S512x2048 .f32 :=
  broadcastTo S512x2048 (shapeCast S512x1 (multiReduction .add [1] S512 (expTile s) 0x00000000#32 reduces_S512x2048_S512 (.inl rfl) rfl) shapeCasts_S512_S512x1) broadcasts_S512x1_S512x2048

/-- The weight tile of a score tile. -/
def softTile (s : FVec Ideal S512x2048 .f32) : FVec Ideal S512x2048 .f32 := divf (expTile s) (sumCol s)

theorem maxCol_apply (s : FVec Ideal S512x2048 .f32) (r : Fin 512) (c : Fin 2048) :
    maxCol s (ix2 r c) = rowMax (fun k => s (ix2 r k)) :=
  (col_apply _ r c).trans (rowmax_apply s _ _ _ r)

theorem expTile_apply (s : FVec Ideal S512x2048 .f32) (r : Fin 512) (c : Fin 2048) :
    expTile s (ix2 r c) = Ideal.exp (s (ix2 r c) - rowMax (fun k => s (ix2 r k))) :=
  congrArg (fun z => Ideal.exp (s (ix2 r c) - z)) (maxCol_apply s r c)

theorem sumCol_apply (s : FVec Ideal S512x2048 .f32) (r : Fin 512) (c : Fin 2048) :
    sumCol s (ix2 r c) = ∑ k : Fin 2048, Ideal.exp (s (ix2 r k) - rowMax (fun k' => s (ix2 r k'))) :=
  ((col_apply _ r c).trans (rowsum_apply (expTile s) _ _ _ r)).trans (Finset.sum_congr rfl fun k _ => expTile_apply s r k)

/-- The weight tile is the row softmax of the score tile. -/
theorem softTile_apply (s : FVec Ideal S512x2048 .f32) (r : Fin 512) (k : Fin 2048) :
    softTile s (ix2 r k) = softmax (fun k' => s (ix2 r k')) k :=
  congrArg₂ Ideal.div (expTile_apply s r k) (sumCol_apply s r k)

/-- The body's weight payload is the weight tile of its score tile. -/
theorem pay2_eq : k0_pay2 (F := Ideal) x0 x1 x3 = softTile (scoreTile x0 x1 x3) := rfl

/-- THE WEIGHT TILE at (r,k): the row softmax of the tile's scores. -/
theorem tile_attn (r : Fin 512) (k : Fin 2048) :
    k0_pay2 (F := Ideal) x0 x1 x3 (ix2 r k) = softmax (tileScore x0 x1 x3 r) k := by
  have hs : (fun k' => scoreTile x0 x1 x3 (ix2 r k')) = tileScore x0 x1 x3 r := funext fun k' => scoreTile_apply x0 x1 x3 r k'
  rw [pay2_eq, softTile_apply, hs]

/-- THE OUTPUT TILE at a block index j: the weight row (j 2) contracted with the value rows at feature (j 3). -/
theorem tile_out (j : S1x1x512x128.Idx) :
    k0_pay1 (F := Ideal) (k0_pay4 x0 x1 x3) (k0_pay5 x2) (constant S512x128 .f32 0x00000000#32) j
      = ∑ k : Fin 2048, k0_pay2 (F := Ideal) x0 x1 x3 (ix2 (j 2) k) * x2 (ix4 (0 : Fin 1) (0 : Fin 1) k (j 3)) := by
  unfold k0_pay1
  refine (cast_ab_11ab _ _ j).trans ((pv_apply _ _ (j 2) (j 3)).trans (Finset.sum_congr rfl fun k _ => ?_))
  exact congrArg (k0_pay2 (F := Ideal) x0 x1 x3 (ix2 (j 2) k) * ·) (cast_11ab_ab x2 _ k (j 3))

end Cert.Attn

end
-- ==== Proof.Blocks.lean ====
/-
  From grid points to whole arrays.

  The grid has 4 × 4 × 16 points (batch b, query tile qi, head h). At a point the query window holds rows
  512·qi … 512·qi+511 of `Q[b,h]`, the key and value windows all of `K[b,h]`, `V[b,h]`, the mask window rows
  512·qi … of `M[b,0]`; the two output windows are written back to the same rows of the output and of the weights.
  So what a point writes back is the restriction of ONE function of the whole argument arrays — the specification's
  weights and output — to the point's block: the tile's score at (r,k) is the array score at (b,h,512·qi+r,k).
  The 256 blocks of each output tile its array (the point covering row q of (b,h) is (b, q / 512, h)), so after the
  run each output array is that function.
-/
import proofs.«428093_j65901978190341_3_alg».proof.Proof.Gen.KernelIdeal.Value
import proofs.«428093_j65901978190341_3_alg».proof.Proof.KerTile

set_option maxRecDepth 16384

noncomputable section

namespace Cert.Attn

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-- The index maps over the grid: every window's block indices on the batch and head axes are the weights window's,
    the query, mask and output windows move with it along the query axis, the key and value windows stay at the top,
    nothing moves along the last axis; and the weights window's indices stay in their ranges. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (3 : Fin 4) = 0
    ∧ win0_5.index t (0 : Fin 4) < 4 ∧ win0_5.index t (1 : Fin 4) < 16 ∧ win0_5.index t (2 : Fin 4) < 4 :=
  (by decide +kernel : ∀ t : Fin grid0.N, _)

/-- Every (batch, head, query tile) is some point's. -/
theorem idx_onto : ∀ (q0 : Fin 4) (q1 : Fin 16) (q2 : Fin 4), ∃ t : Fin cfg0.N,
    win0_5.index t (0 : Fin 4) = q0.val ∧ win0_5.index t (1 : Fin 4) = q1.val ∧ win0_5.index t (2 : Fin 4) = q2.val :=
  (by decide +kernel : ∀ (q0 : Fin 4) (q1 : Fin 16) (q2 : Fin 4), ∃ t : Fin grid0.N,
    win0_5.index t (0 : Fin 4) = q0.val ∧ win0_5.index t (1 : Fin 4) = q1.val ∧ win0_5.index t (2 : Fin 4) = q2.val)

/-- A tile's scores are the array's, when the tile's query row, key rows and mask row are the array's rows. -/
theorem tileScore_eq (Q K : SQ.Idx → EReal) (M : SM.Idx → EReal)
    (x0 : Vec Ideal S1x1x512x128 .f32) (x1 : Vec Ideal S1x1x2048x128 .f32) (x3 : Vec Ideal S1x1x512x2048 .f32)
    (b : Fin 4) (h : Fin 16) (q : Fin 2048) (r : Fin 512)
    (h0 : ∀ d : Fin 128, x0 (ix4 (0 : Fin 1) (0 : Fin 1) r d) = Q (ix4 b h q d))
    (h1 : ∀ (k : Fin 2048) (d : Fin 128), x1 (ix4 (0 : Fin 1) (0 : Fin 1) k d) = K (ix4 b h k d))
    (h3 : ∀ k : Fin 2048, x3 (ix4 (0 : Fin 1) (0 : Fin 1) r k) = M (ix4 b (0 : Fin 1) q k)) :
    tileScore x0 x1 x3 r = score Q K M b h q := by
  funext k
  unfold tileScore score
  simp only [h0, h1, h3]

/-- The weight payload at a point whose blocks are the arrays' rows is the specification's weight. -/
theorem point_attn (Q K : SQ.Idx → EReal) (M : SM.Idx → EReal)
    (x0 : Vec Ideal S1x1x512x128 .f32) (x1 : Vec Ideal S1x1x2048x128 .f32) (x3 : Vec Ideal S1x1x512x2048 .f32)
    (b : Fin 4) (h : Fin 16) (q : Fin 2048) (r : Fin 512) (k : Fin 2048)
    (h0 : ∀ d : Fin 128, x0 (ix4 (0 : Fin 1) (0 : Fin 1) r d) = Q (ix4 b h q d))
    (h1 : ∀ (k : Fin 2048) (d : Fin 128), x1 (ix4 (0 : Fin 1) (0 : Fin 1) k d) = K (ix4 b h k d))
    (h3 : ∀ k : Fin 2048, x3 (ix4 (0 : Fin 1) (0 : Fin 1) r k) = M (ix4 b (0 : Fin 1) q k)) :
    k0_pay2 (F := Ideal) x0 x1 x3 (ix2 r k) = attn Q K M (ix4 b h q k) :=
  (tile_attn x0 x1 x3 r k).trans (congrArg (fun s => softmax s k) (tileScore_eq Q K M x0 x1 x3 b h q r h0 h1 h3))

/-! ## What a point writes back -/

/-- The query window's block at point t, at (0,0,r,d), is the query array at the point's batch and head, row 512·qi + r. -/
theorem blk0_apply (c : Dev nD) (t : Fin cfg0.N) (b : Fin 4) (h : Fin 16) (q : Fin 2048) (r : Fin 512)
    (hb : b.val = win0_5.index t (0 : Fin 4)) (hh : h.val = win0_5.index t (1 : Fin 4))
    (hq : q.val = win0_5.index t (2 : Fin 4) * 512 + r.val) (d : Fin 128) :
    iblk m c 0 t (ix4 (0 : Fin 1) (0 : Fin 1) r d) = V m c main_arg0 (ix4 b h q d) := by
  obtain ⟨a0, a1, a2, a3, -⟩ := idx_facts t
  show V m c main_arg0 (((cfg0.win 0).blk t).view.emb (ix4 (0 : Fin 1) (0 : Fin 1) r d)) = _
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = q.val; omega
  | ⟨3, _⟩ => show win0_0.index t (3 : Fin 4) * 128 + 1 * d.val = d.val; omega

/-- The key window's block at point t, at (0,0,k,d), is the key array at the point's batch and head, row k. -/
theorem blk1_apply (c : Dev nD) (t : Fin cfg0.N) (b : Fin 4) (h : Fin 16)
    (hb : b.val = win0_5.index t (0 : Fin 4)) (hh : h.val = win0_5.index t (1 : Fin 4)) (k : Fin 2048) (d : Fin 128) :
    iblk m c 1 t (ix4 (0 : Fin 1) (0 : Fin 1) k d) = V m c main_arg1 (ix4 b h k d) := by
  obtain ⟨-, -, -, -, a0, a1, a2, a3, -⟩ := idx_facts t
  show V m c main_arg1 (((cfg0.win 1).blk t).view.emb (ix4 (0 : Fin 1) (0 : Fin 1) k d)) = _
  refine congrArg (V m c main_arg1) (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = k.val; omega
  | ⟨3, _⟩ => show win0_1.index t (3 : Fin 4) * 128 + 1 * d.val = d.val; omega

/-- The value window's block at point t, at (0,0,k,d), is the value array at the point's batch and head, row k. -/
theorem blk2_apply (c : Dev nD) (t : Fin cfg0.N) (b : Fin 4) (h : Fin 16)
    (hb : b.val = win0_5.index t (0 : Fin 4)) (hh : h.val = win0_5.index t (1 : Fin 4)) (k : Fin 2048) (d : Fin 128) :
    iblk m c 2 t (ix4 (0 : Fin 1) (0 : Fin 1) k d) = V m c main_arg2 (ix4 b h k d) := by
  obtain ⟨-, -, -, -, -, -, -, -, a0, a1, a2, a3, -⟩ := idx_facts t
  show V m c main_arg2 (((cfg0.win 2).blk t).view.emb (ix4 (0 : Fin 1) (0 : Fin 1) k d)) = _
  refine congrArg (V m c main_arg2) (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 128 + 1 * d.val = d.val; omega

/-- The mask window's block at point t, at (0,0,r,k), is the mask at the point's batch, its one head row, row 512·qi + r. -/
theorem blk3_apply (c : Dev nD) (t : Fin cfg0.N) (b : Fin 4) (q : Fin 2048) (r : Fin 512)
    (hb : b.val = win0_5.index t (0 : Fin 4)) (hq : q.val = win0_5.index t (2 : Fin 4) * 512 + r.val) (k : Fin 2048) :
    iblk m c 3 t (ix4 (0 : Fin 1) (0 : Fin 1) r k) = V m c main_arg3 (ix4 b (0 : Fin 1) q k) := by
  obtain ⟨-, -, -, -, -, -, -, -, -, -, -, -, a0, a1, a2, a3, -⟩ := idx_facts t
  show V m c main_arg3 (((cfg0.win 3).blk t).view.emb (ix4 (0 : Fin 1) (0 : Fin 1) r k)) = _
  refine congrArg (V m c main_arg3) (funext fun a => Fin.ext ?_)
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 512 + 1 * r.val = q.val; omega
  | ⟨3, _⟩ => show win0_3.index t (3 : Fin 4) * 2048 + 1 * k.val = k.val; omega

/-- The weight payload at point t, tile entry (r,k), is the specification's weight at the point's batch and head, row
    512·qi + r, position k. -/
theorem point_attn_at (c : Dev nD) (t : Fin cfg0.N) (b : Fin 4) (h : Fin 16) (q : Fin 2048) (r : Fin 512)
    (hb : b.val = win0_5.index t (0 : Fin 4)) (hh : h.val = win0_5.index t (1 : Fin 4))
    (hq : q.val = win0_5.index t (2 : Fin 4) * 512 + r.val) (k : Fin 2048) :
    k0_pay2 (F := Ideal) (iblk m c 0 t) (iblk m c 1 t) (iblk m c 3 t) (ix2 r k)
      = attn (V m c main_arg0) (V m c main_arg1) (V m c main_arg3) (ix4 b h q k) :=
  point_attn (V m c main_arg0) (V m c main_arg1) (V m c main_arg3) (iblk m c 0 t) (iblk m c 1 t) (iblk m c 3 t) b h q r k
    (fun d => blk0_apply m c t b h q r hb hh hq d) (fun k d => blk1_apply m c t b h hb hh k d)
    (fun k => blk3_apply m c t b q r hb hq k)

/-- WHAT POINT t WRITES BACK to the weights array is block t of the specification's weights. -/
theorem flushed5_eq (c : Dev nD) (t : Fin cfg0.N) :
    (dats m 0 c).flushed 5 t
      = ((cfg0.win 5).blk t).view.read (Elt Ideal) (attn (V m c main_arg0) (V m c main_arg1) (V m c main_arg3)) := by
  rw [Cert.KernelIdeal.Value.flushed5]
  unfold out0_5
  rw [View.canon_unit_zero offsets_zero]
  simp only [View.ld_unit_zero (S := S1x1x512x128) offsets_zero, View.ld_unit_zero (S := S1x1x2048x128) offsets_zero,
    View.ld_unit_zero (S := S1x1x512x2048) offsets_zero]
  funext j
  obtain ⟨-, -, -, -, -, -, -, -, -, -, -, -, -, -, -, -, -, -, -, -, a3, -⟩ := idx_facts t
  have hj0 : (j 0).val < 1 := (j 0).isLt
  have hj1 : (j 1).val < 1 := (j 1).isLt
  show shapeCast S1x1x512x2048 (k0_pay2 (F := Ideal) (iblk m c 0 t) (iblk m c 1 t) (iblk m c 3 t)) shapeCasts_S512x2048_S1x1x512x2048 j
    = attn (V m c main_arg0) (V m c main_arg1) (V m c main_arg3) (((cfg0.win 5).blk t).view.emb j)
  refine (cast_ab_11ab _ _ j).trans ?_
  refine (point_attn_at m c t ((((cfg0.win 5).blk t).view.emb j) 0) ((((cfg0.win 5).blk t).view.emb j) 1)
    ((((cfg0.win 5).blk t).view.emb j) 2) (j 2)
    (by show win0_5.index t (0 : Fin 4) * 1 + 1 * (j 0).val = _; omega)
    (by show win0_5.index t (1 : Fin 4) * 1 + 1 * (j 1).val = _; omega)
    (by show win0_5.index t (2 : Fin 4) * 512 + 1 * (j 2).val = _; omega) (j 3)).trans ?_
  refine congrArg (attn (V m c main_arg0) (V m c main_arg1) (V m c main_arg3)) (funext fun a => ?_)
  match a with
  | ⟨0, _⟩ => rfl
  | ⟨1, _⟩ => rfl
  | ⟨2, _⟩ => rfl
  | ⟨3, _⟩ => exact Fin.ext (by show (j 3).val = win0_5.index t (3 : Fin 4) * 2048 + 1 * (j 3).val; omega)

/-- WHAT POINT t WRITES BACK to the output array is block t of the specification's output. -/
theorem flushed4_eq (c : Dev nD) (t : Fin cfg0.N) :
    (dats m 0 c).flushed 4 t
      = ((cfg0.win 4).blk t).view.read (Elt Ideal) (out (V m c main_arg0) (V m c main_arg1) (V m c main_arg2) (V m c main_arg3)) := by
  rw [Cert.KernelIdeal.Value.flushed4]
  unfold out0_4
  rw [View.canon_unit_zero offsets_zero]
  simp only [View.ld_unit_zero (S := S1x1x512x128) offsets_zero, View.ld_unit_zero (S := S1x1x2048x128) offsets_zero,
    View.ld_unit_zero (S := S1x1x512x2048) offsets_zero]
  funext j
  obtain ⟨-, -, -, -, -, -, -, -, -, -, -, -, -, -, -, -, b0, b1, b2, b3, -⟩ := idx_facts t
  have hj0 : (j 0).val < 1 := (j 0).isLt
  have hj1 : (j 1).val < 1 := (j 1).isLt
  show k0_pay1 (F := Ideal) (k0_pay4 (iblk m c 0 t) (iblk m c 1 t) (iblk m c 3 t)) (k0_pay5 (iblk m c 2 t)) (constant S512x128 .f32 0x00000000#32) j
    = out (V m c main_arg0) (V m c main_arg1) (V m c main_arg2) (V m c main_arg3) (((cfg0.win 4).blk t).view.emb j)
  have hb : ((((cfg0.win 4).blk t).view.emb j) 0).val = win0_5.index t (0 : Fin 4) := by
    show win0_4.index t (0 : Fin 4) * 1 + 1 * (j 0).val = _; omega
  have hh : ((((cfg0.win 4).blk t).view.emb j) 1).val = win0_5.index t (1 : Fin 4) := by
    show win0_4.index t (1 : Fin 4) * 1 + 1 * (j 1).val = _; omega
  have hq : ((((cfg0.win 4).blk t).view.emb j) 2).val = win0_5.index t (2 : Fin 4) * 512 + (j 2).val := by
    show win0_4.index t (2 : Fin 4) * 512 + 1 * (j 2).val = _; omega
  have hd : ((((cfg0.win 4).blk t).view.emb j) 3).val = (j 3).val := by
    show win0_4.index t (3 : Fin 4) * 128 + 1 * (j 3).val = _; omega
  refine (tile_out (iblk m c 0 t) (iblk m c 1 t) (iblk m c 2 t) (iblk m c 3 t) j).trans ?_
  unfold out
  refine Finset.sum_congr rfl fun k _ => congrArg₂ (· * ·) ?_ ?_
  · exact point_attn_at m c t _ _ _ (j 2) hb hh hq k
  · refine (blk2_apply m c t _ _ hb hh k (j 3)).trans (congrArg (V m c main_arg2) (funext fun a => ?_))
    match a with
    | ⟨0, _⟩ => rfl
    | ⟨1, _⟩ => rfl
    | ⟨2, _⟩ => rfl
    | ⟨3, _⟩ => exact Fin.ext hd.symm

/-! ## The blocks tile the arrays -/

/-- An index of the weights array is in point t's block iff each coordinate is in the block's range on its axis. -/
theorem mem_blk5 (t : Fin cfg0.N) (i : S4x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- An index of the output array is in point t's block iff each coordinate is in the block's range on its axis. -/
theorem mem_blk4 (t : Fin cfg0.N) (i : S4x16x2048x128.Idx) :
    i ∈ ((cfg0.win 4).blk t).view.set ↔ ∀ a : Fin 4, win0_4.index t a * S1x1x512x128.size a ≤ (i a).val
      ∧ (i a).val < win0_4.index t a * S1x1x512x128.size a + S1x1x512x128.size a := by
  show i ∈ ((View.whole main_v0_0).slice (win0_4.rect t)).set ↔ _
  rw [View.set_slice_whole, Rect.mem_set_unit]
  exact Iff.rfl

/-- Every index of the weights array is in the block of the point (batch, row / 512, head). -/
theorem cover5 (i : S4x16x2048x2048.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 2048 := (i 3).isLt
  obtain ⟨t, q0, q1, q2⟩ := idx_onto ⟨(i 0).val, hi0⟩ ⟨(i 1).val, hi1⟩ ⟨(i 2).val / 512, by omega⟩
  have q0' : win0_5.index t (0 : Fin 4) = (i 0).val := q0
  have q1' : win0_5.index t (1 : Fin 4) = (i 1).val := q1
  have q2' : win0_5.index t (2 : Fin 4) = (i 2).val / 512 := q2
  obtain ⟨-, -, -, -, -, -, -, -, -, -, -, -, -, -, -, -, -, -, -, -, q3, -⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output array is in the block of the point (batch, row / 512, head). -/
theorem cover4 (i : S4x16x2048x128.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 128 := (i 3).isLt
  obtain ⟨t, q0, q1, q2⟩ := idx_onto ⟨(i 0).val, hi0⟩ ⟨(i 1).val, hi1⟩ ⟨(i 2).val / 512, by omega⟩
  have q0' : win0_5.index t (0 : Fin 4) = (i 0).val := q0
  have q1' : win0_5.index t (1 : Fin 4) = (i 1).val := q1
  have q2' : win0_5.index t (2 : Fin 4) = (i 2).val / 512 := q2
  obtain ⟨-, -, -, -, -, -, -, -, -, -, -, -, -, -, -, -, b0, b1, b2, b3, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 128 ≤ (i 3).val ∧ (i 3).val < win0_4.index t (3 : Fin 4) * 128 + 128; omega

/-- THE WEIGHTS ARRAY after the run is the specification's weights of the argument arrays. -/
theorem final5 (c : Dev nD) :
    (dats m 0 c).arrAt 5 cfg0.N = attn (V m c main_arg0) (V m c main_arg1) (V m c main_arg3) :=
  (dats m 0 c).arrAt_eq_of_cover 5 _ (fun t _ => flushed5_eq m c t) cover5

/-- THE OUTPUT ARRAY after the run is the specification's output of the argument arrays. -/
theorem final4 (c : Dev nD) :
    (dats m 0 c).arrAt 4 cfg0.N = out (V m c main_arg0) (V m c main_arg1) (V m c main_arg2) (V m c main_arg3) :=
  (dats m 0 c).arrAt_eq_of_cover 4 _ (fun t _ => flushed4_eq m c t) cover4

/-! ## The run, read -/

/-- Every weakly fair execution of the kernel's program ends with the output array at the specification's output and
    the weights array at the specification's weights of the arguments as launched, the arguments unchanged. -/
theorem run : θ_run defs (onTc (τ := τ) (main (F := Ideal))) ⟨m, fun _ => 0, ρ⟩ fun r => ∀ c : Dev nD,
      r.2.mem ((c : Thread nD τ).loc main_v0_0)
        = out (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
        = attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Attn

end
-- ==== Proof.lean ====
/-
  Scaled dot-product attention with an additive mask bias: the kernel against its reference, over the extended reals.

  Both programs compute, for queries Q, keys K, values V of shape [4,16,2048,128] and a mask M of shape [4,1,2048,2048],
  the weights  a = softmax_k( Σ_d Q·K / 128 + M·w )  and the output  o = Σ_k a·V  (`Proof/Softmax.lean`). The kernel walks a
  4 × 4 × 16 grid of (batch, 512-row query tile, head) and scales the query tile by 2⁻⁷ before contracting
  (`Proof/KerTile.lean`); its blocks tile both result arrays, so after its run they hold the specification
  (`Proof/Blocks.lean`). The reference divides the contracted sum by 128; on real entries that is the same number, and
  the precondition makes every entry real (`Proof/Finite.lean`, `Proof/RefValue.lean`). The idealization rewrote nothing,
  so the kernel's idealized program is its own text read on the extended reals.
-/
import proofs.«428093_j65901978190341_3_alg».proof.Defs
import proofs.«428093_j65901978190341_3_alg».proof.Proof.Gen.Kernel
import proofs.«428093_j65901978190341_3_alg».proof.Proof.Gen.Kernel.Skeleton
import proofs.«428093_j65901978190341_3_alg».proof.Proof.Gen.Kernel.Launch
import proofs.«428093_j65901978190341_3_alg».proof.Proof.Gen.Kernel.Points
import proofs.«428093_j65901978190341_3_alg».proof.Proof.Gen.Kernel.Frame
import proofs.«428093_j65901978190341_3_alg».proof.Proof.Gen.KernelIdeal
import proofs.«428093_j65901978190341_3_alg».proof.Proof.Gen.KernelIdeal.Skeleton
import proofs.«428093_j65901978190341_3_alg».proof.Proof.Gen.KernelIdeal.Launch
import proofs.«428093_j65901978190341_3_alg».proof.Proof.Gen.KernelIdeal.Points
import proofs.«428093_j65901978190341_3_alg».proof.Proof.Gen.KernelIdeal.Frame
import proofs.«428093_j65901978190341_3_alg».proof.Proof.Gen.ReferenceIdeal
import proofs.«428093_j65901978190341_3_alg».proof.Proof.Gen.Pre_finite_inputs
import proofs.«428093_j65901978190341_3_alg».proof.Proof.Gen.KernelIdeal.Value
import proofs.«428093_j65901978190341_3_alg».proof.Proof.Gen.ReferenceIdeal.Run
import proofs.«428093_j65901978190341_3_alg».proof.Proof.Gen.ReferenceIdeal.Read
import proofs.«428093_j65901978190341_3_alg».proof.Proof.Finite
import proofs.«428093_j65901978190341_3_alg».proof.Proof.RefValue
import proofs.«428093_j65901978190341_3_alg».proof.Proof.Blocks
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the four arguments, with every argument entry finite, both programs end with the
    output array at the specification's output and the weights array at the specification's weights: the kernel by
    its blocks, the reference operation by operation, the query and key entries real by the precondition. -/
theorem algebraic : Cert.algebraic_KernelIdeal_ReferenceIdeal := by
  intro m ρ m' ρ' hpre hagree
  refine ⟨_, _, Cert.Attn.run m ρ, ?_⟩
  refine (θ_run Cert.ReferenceIdeal.defs _ _).mono (fun _ h c => ?_) (Cert.ReferenceIdeal.Value.run (F := Ideal) m' ρ')
  obtain ⟨hQ, hK⟩ := Cert.Attn.real_of_pre _ _ _ _ (hpre c)
  refine ⟨?_, ?_, (h c).2.2⟩
  · rw [(h c).1, Cert.ReferenceIdeal.Read.val_main_v18_eq, (hagree c).1, (hagree c).2.1, (hagree c).2.2.1, (hagree c).2.2.2]
    exact Cert.Attn.ref_out _ _ _ _ hQ hK
  · rw [(h c).2.1, Cert.ReferenceIdeal.Read.val_main_v17_eq, (hagree c).1, (hagree c).2.1, (hagree c).2.2.2]
    exact Cert.Attn.ref_attn _ _ _ hQ hK

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
